-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S16384x512 .f32) (main_arg1 : IVec S16384 32) (main_arg2 : FVec F S512x2048 .f32) (main_arg3 : FVec F S2048 .f32) (main_arg4 : FVec F S2048x512 .f32) (main_arg5 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x2048 .f32 := Host.absf main_arg2
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x512 .f32 := Host.absf main_arg4
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg5 main_v13 main_v16
-- ==== Kernel.lean ====
abbrev S16384x512 : Shape := ⟨2, ![16384, 512]⟩
abbrev S16384 : Shape := ⟨1, ![16384]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S2x16x512 : Shape := ⟨3, ![2, 16, 512]⟩
abbrev S2x16x128 : Shape := ⟨3, ![2, 16, 128]⟩
abbrev S1024x512 : Shape := ⟨2, ![1024, 512]⟩
abbrev S1024 : Shape := ⟨1, ![1024]⟩
abbrev S1x16x512 : Shape := ⟨3, ![1, 16, 512]⟩
abbrev S1x16x128 : Shape := ⟨3, ![1, 16, 128]⟩
abbrev S16x512 : Shape := ⟨2, ![16, 512]⟩
abbrev S16x128 : Shape := ⟨2, ![16, 128]⟩
abbrev S1024x2048 : Shape := ⟨2, ![1024, 2048]⟩
abbrev S1x2048 : Shape := ⟨2, ![1, 2048]⟩
abbrev S1x512 : Shape := ⟨2, ![1, 512]⟩
abbrev S1024x16 : Shape := ⟨2, ![1024, 16]⟩
abbrev S1024x1 : Shape := ⟨2, ![1024, 1]⟩
abbrev S16 : Shape := ⟨1, ![16]⟩
abbrev S16x1 : Shape := ⟨2, ![16, 1]⟩
abbrev S_ : Shape := ⟨0, ![]⟩

abbrev nBuf : Space → Nat
  | .hbm => 23
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S512x2048, .f32⟩
  | .hbm, ⟨3, _⟩ => ⟨S2048, .f32⟩
  | .hbm, ⟨4, _⟩ => ⟨S2048x512, .f32⟩
  | .hbm, ⟨5, _⟩ => ⟨S512, .f32⟩
  | .hbm, ⟨6, _⟩ => ⟨S16384x512, .bf16⟩
  | .hbm, ⟨7, _⟩ => ⟨S512x2048, .bf16⟩
  | .hbm, ⟨8, _⟩ => ⟨S2048x512, .bf16⟩
  | .hbm, ⟨9, _⟩ => ⟨S2x16x512, .f32⟩
  | .hbm, ⟨10, _⟩ => ⟨S2x16x128, .f32⟩
  | .hbm, ⟨11, _⟩ => ⟨S_, .f32⟩
  | .hbm, ⟨12, _⟩ => ⟨S16x512, .f32⟩
  | .hbm, ⟨13, _⟩ => ⟨S_, .f32⟩
  | .hbm, ⟨14, _⟩ => ⟨S16x128, .f32⟩
  | .hbm, ⟨15, _⟩ => ⟨S16x1, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16x1, .f32⟩
  | .hbm, ⟨21, _⟩ => ⟨S16x512, .f32⟩
  | .hbm, ⟨22, _⟩ => ⟨S16x512, .f32⟩
  | .local _ .vmem, ⟨0, _⟩ => ⟨S1024x512, .bf16⟩
  | .local _ .vmem, ⟨1, _⟩ => ⟨S1024x512, .bf16⟩
  | .local _ .vmem, ⟨2, _⟩ => ⟨S1024, .i32⟩
  | .local _ .vmem, ⟨3, _⟩ => ⟨S1024, .i32⟩
  | .local _ .vmem, ⟨4, _⟩ => ⟨S512x2048, .bf16⟩
  | .local _ .vmem, ⟨5, _⟩ => ⟨S2048, .f32⟩
  | .local _ .vmem, ⟨6, _⟩ => ⟨S2048x512, .bf16⟩
  | .local _ .vmem, ⟨7, _⟩ => ⟨S512, .f32⟩
  | .local _ .vmem, ⟨8, _⟩ => ⟨S1x16x512, .f32⟩
  | .local _ .vmem, ⟨9, _⟩ => ⟨S1x16x512, .f32⟩
  | .local _ .vmem, ⟨10, _⟩ => ⟨S1x16x128, .f32⟩
  | .local _ .vmem, ⟨11, _⟩ => ⟨S1x16x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  ![v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  shapeCasts_S16x512_S1x16x512 : S16x512.ShapeCasts S1x16x512
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024_S1024_0 : ∀ a, (![0] : Fin 1 → Nat) a + S1024.size a ≤ S1024.size a
  h_S1024 : 0 < S1024.numel
  iota_S1024x16_d1_w32 : S1024x16.Iotas .tc 32 [1]
  shapeCasts_S1024_S1024x1 : S1024.ShapeCasts S1024x1
  broadcasts_S1024x1_S1024x16 : S1024x1.Broadcasts S1024x16
  natLt_1_32 : 1 < 32
  reduces_S1024x16_S16 : S1024x16.Reduces [0] S16
  shapeCasts_S16_S16x1 : S16.ShapeCasts S16x1
  shapeCasts_S16x1_S16x1 : S16x1.ShapeCasts S16x1
  broadcasts_S16x1_S16x128 : S16x1.Broadcasts S16x128
  reducesTo_S2x16x512_S16x512_d0 : S2x16x512.ReducesTo [0] S16x512
  h_S_ : 0 < S_.numel
  reducesTo_S2x16x128_S16x128_d0 : S2x16x128.ReducesTo [0] S16x128
  slices_S16x128_S16x1_0_0 : S16x128.Slices ![0, 0] S16x1
  shapeCasts_S16x1_S16 : S16x1.ShapeCasts S16
  bcast_S_S16 : S_.BroadcastsInDim S16 (![] : Fin 0 → Fin S16.rank)
  bcast_S16_S16x1_0 : S16.BroadcastsInDim S16x1 (![0] : Fin 1 → Fin S16x1.rank)
  bcast_S16x1_S16x512_0_1 : S16x1.BroadcastsInDim S16x512 (![0, 1] : Fin 2 → Fin S16x512.rank)
  dot_S1024x512_S512x2048_S1024x2048_1_0_0_1_n_n_wf : DotDims.WF S1024x512 S512x2048 S1024x2048 [1] [0] [0] [1] [] []
  dot_S1024x2048_S2048x512_S1024x512_1_0_0_1_n_n_wf : DotDims.WF S1024x2048 S2048x512 S1024x512 [1] [0] [0] [1] [] []
  dot_S1024x16_S1024x512_S16x512_0_0_1_1_n_n_wf : DotDims.WF S1024x16 S1024x512 S16x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .bf16 = 32 ∨ (Rect.block (s := S16384x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S16384.size a
  hwx0_1 : ∀ i : grid0.Coords, EltTy.bits .i32 = 32 ∨ (Rect.block (s := S16384) S1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .bf16 = 32 ∨ (Rect.block (s := S512x2048) S512x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S2048.size a
  hwx0_3 : ∀ i : grid0.Coords, EltTy.bits .f32 = 32 ∨ (Rect.block (s := S2048) S2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .bf16 = 32 ∨ (Rect.block (s := S2048x512) S2048x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x512.size a ≤ S2x16x512.size a
  hwx0_6 : ∀ i : grid0.Coords, EltTy.bits .f32 = 32 ∨ (Rect.block (s := S2x16x512) S1x16x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x128.size a ≤ S2x16x128.size a
  hwx0_7 : ∀ i : grid0.Coords, EltTy.bits .f32 = 32 ∨ (Rect.block (s := S2x16x128) S1x16x128.size (cc0_transform_7 i) (hinb0_7 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x16_S1024x512_S16x512_0_0_1_1_n_n : DotDims S1024x16 S1024x512 S16x512 where
  lhsContracting := [0]
  rhsContracting := [0]
  lhsNonContracting := [1]
  rhsNonContracting := [1]
  lhsBatch := []
  rhsBatch := []
  wf := dot_S1024x16_S1024x512_S16x512_0_0_1_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S1x16x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S1x16x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384 : Shape := ⟨1, ![16384]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S16384x2048 : Shape := ⟨2, ![16384, 2048]⟩
abbrev S1x2048 : Shape := ⟨2, ![1, 2048]⟩
abbrev S_ : Shape := ⟨0, ![]⟩
abbrev S1x512 : Shape := ⟨2, ![1, 512]⟩
abbrev S16x512 : Shape := ⟨2, ![16, 512]⟩
abbrev S16384x1 : Shape := ⟨2, ![16384, 1]⟩
abbrev S16 : Shape := ⟨1, ![16]⟩
abbrev S16x1 : Shape := ⟨2, ![16, 1]⟩

abbrev nBuf : Space → Nat
  | .hbm => 33
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S512x2048, .f32⟩
  | .hbm, ⟨3, _⟩ => ⟨S2048, .f32⟩
  | .hbm, ⟨4, _⟩ => ⟨S2048x512, .f32⟩
  | .hbm, ⟨5, _⟩ => ⟨S512, .f32⟩
  | .hbm, ⟨6, _⟩ => ⟨S16384x2048, .f32⟩
  | .hbm, ⟨7, _⟩ => ⟨S1x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S16384x512, .f32⟩
  | .hbm, ⟨14, _⟩ => ⟨S1x512, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16x512, .f32⟩
  | .hbm, ⟨19, _⟩ => ⟨S16384x1, .i32⟩
  | .hbm, ⟨20, _⟩ => ⟨S16x512, .f32⟩
  | .hbm, ⟨21, _⟩ => ⟨S_, .f32⟩
  | .hbm, ⟨22, _⟩ => ⟨S16384, .f32⟩
  | .hbm, ⟨23, _⟩ => ⟨S_, .f32⟩
  | .hbm, ⟨24, _⟩ => ⟨S16, .f32⟩
  | .hbm, ⟨25, _⟩ => ⟨S16384x1, .i32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16x1, .f32⟩
  | .hbm, ⟨31, _⟩ => ⟨S16x512, .f32⟩
  | .hbm, ⟨32, _⟩ => ⟨S16x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16x512 : S_.BroadcastsInDim S16x512 (![] : Fin 0 → Fin S16x512.rank)
  bcast_S16384_S16384x1_0 : S16384.BroadcastsInDim S16384x1 (![0] : Fin 1 → Fin S16384x1.rank)
  bcast_S_S16384 : S_.BroadcastsInDim S16384 (![] : Fin 0 → Fin S16384.rank)
  bcast_S_S16 : S_.BroadcastsInDim S16 (![] : Fin 0 → Fin S16.rank)
  bcast_S16_S16x1_0 : S16.BroadcastsInDim S16x1 (![0] : Fin 1 → Fin S16x1.rank)
  bcast_S16x1_S16x512_0_1 : S16x1.BroadcastsInDim S16x512 (![0, 1] : Fin 2 → Fin S16x512.rank)
  dot_S16384x512_S512x2048_S16384x2048_1_0_0_1_n_n_wf : DotDims.WF S16384x512 S512x2048 S16384x2048 [1] [0] [0] [1] [] []
  dot_S16384x2048_S2048x512_S16384x512_1_0_0_1_n_n_wf : DotDims.WF S16384x2048 S2048x512 S16384x512 [1] [0] [0] [1] [] []
  scatter_S16x512_S16384x1_S16384x512_1_0_0_1_wf : ScatterDims.WF S16x512 S16384x1 S16384x512 [1] [0] [0] 1
  scatter_S16_S16384x1_S16384_n_0_0_1_wf : ScatterDims.WF S16 S16384x1 S16384 [] [0] [0] 1

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf
def dot_S16384x2048_S2048x512_S16384x512_1_0_0_1_n_n : DotDims S16384x2048 S2048x512 S16384x512 where
  lhsContracting := [1]
  rhsContracting := [0]
  lhsNonContracting := [0]
  rhsNonContracting := [1]
  lhsBatch := []
  rhsBatch := []
  wf := dot_S16384x2048_S2048x512_S16384x512_1_0_0_1_n_n_wf
def scatter_S16x512_S16384x1_S16384x512_1_0_0_1 : ScatterDims S16x512 S16384x1 S16384x512 where
  updateWindowDims := [1]
  insertedWindowDims := [0]
  scatterDimsToOperandDims := [0]
  indexVectorDim := 1
  wf := scatter_S16x512_S16384x1_S16384x512_1_0_0_1_wf
def scatter_S16_S16384x1_S16384_n_0_0_1 : ScatterDims S16 S16384x1 S16384 where
  updateWindowDims := []
  insertedWindowDims := [0]
  scatterDimsToOperandDims := [0]
  indexVectorDim := 1
  wf := scatter_S16_S16384x1_S16384_n_0_0_1_wf

class Facts : Prop extends Facts₀ where

variable [Facts]
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.Spec.lean ====
/-
  Segment-mean pooling of a two-layer encoder, as ONE function of the argument arrays over the extended reals.

  For a token row r the encoder is  enc r j = (Σₖ relu(Σ_d x[r,d]·W1[d,k] + b1[k]) · W2[k,j]) + b2[j].
  For a segment s the pooled value is the sum of enc r j over the rows whose segment id, read signed, is s, divided by
  the larger of the number of such rows and 1. A row whose id names no segment contributes to none.

  The token axis also splits into 16 tiles of 1024 rows. A row's membership of segment s is then a 0/1 weight (the
  id word equals the word of s), a tile contributes the weighted sum of its rows, tiles 0..7 and 8..15 are
  accumulated in order into two partial sums, and the two partial sums are added. Sums over the extended reals
  commute and associate, 1·z = z and 0·z = 0 there, so this is the same pooled sum: proved here once, over
  abstract arrays.
-/
import Idealize.ShloMosaic.PureOps.Ideal.Laws
import Idealize.ShloMosaic.Lib.ValueIdx

noncomputable section

open scoped BigOperators

namespace SegPool

open Idealize.ShloMosaic Idealize.ShloMosaic.ValueIdx

/-! ## The arrays -/

abbrev XArr := (⟨2, ![16384, 512]⟩ : Shape).Idx → EReal
abbrev IdArr := (⟨1, ![16384]⟩ : Shape).Idx → BitVec 32
abbrev W1Arr := (⟨2, ![512, 2048]⟩ : Shape).Idx → EReal
abbrev B1Arr := (⟨1, ![2048]⟩ : Shape).Idx → EReal
abbrev W2Arr := (⟨2, ![2048, 512]⟩ : Shape).Idx → EReal
abbrev B2Arr := (⟨1, ![512]⟩ : Shape).Idx → EReal

variable (x : XArr) (ids : IdArr) (W1 : W1Arr) (b1 : B1Arr) (W2 : W2Arr) (b2 : B2Arr)

/-- The hidden activation of row `r`: relu of the first affine layer. -/
def hid (r : Fin 16384) (k : Fin 2048) : EReal :=
  max ((∑ d : Fin 512, x (ix2 r d) * W1 (ix2 d k)) + b1 (ix1 k)) 0

/-- The encoder's output for row `r`: the second affine layer of the hidden activation. -/
def enc (r : Fin 16384) (j : Fin 512) : EReal :=
  (∑ k : Fin 2048, hid x W1 b1 r k * W2 (ix2 k j)) + b2 (ix1 j)

/-- The rows of segment `s`: those whose id, read signed, is `s`. -/
def inSeg (s : Fin 16) : Finset (Fin 16384) :=
  Finset.univ.filter fun r => (ids (ix1 r)).toInt = (s.val : Int)

/-- The sum of the encoder's outputs over a segment's rows. -/
def segSum (s : Fin 16) (j : Fin 512) : EReal := ∑ r ∈ inSeg ids s, enc x W1 b1 W2 b2 r j

/-- The number of a segment's rows, as a sum of ones. -/
def segCnt (s : Fin 16) : EReal := ∑ _r ∈ inSeg ids s, (1 : EReal)

/-- The pooled mean: the segment's sum over the larger of its count and the f32 word of one. -/
def pooled (i : (⟨2, ![16, 512]⟩ : Shape).Idx) : EReal :=
  Ideal.div (segSum x ids W1 b1 W2 b2 (i 0) (i 1)) (max (segCnt ids (i 0)) (Ideal.ofBits .f32 0x3F800000#32))

/-! ## Words -/

/-- The f32 word of one denotes one. -/
theorem one_f32 : Ideal.ofBits .f32 0x3F800000#32 = 1 := by
  simp [Ideal.ofBits, Ideal.ieee, -EReal.coe_mul]
  norm_num

/-- A 32-bit word is the word of a segment number exactly when, read signed, it is that number. -/
theorem word_eq_iff (w : BitVec 32) (s : Fin 16) : w = BitVec.ofNat 32 s.val ↔ w.toInt = (s.val : Int) := by
  have hs := s.isLt
  have hw := w.isLt
  have hI := BitVec.toInt_eq_toNat_cond w
  constructor
  · intro h
    have hn : w.toNat = s.val := by rw [h, BitVec.toNat_ofNat]; omega
    rw [hI]; split <;> omega
  · intro h
    apply BitVec.eq_of_toNat_eq
    rw [BitVec.toNat_ofNat]
    rw [hI] at h
    split at h <;> omega

/-! ## Tiles of 1024 rows -/

/-- Row `p` of tile `t` (total in `t`: reduced into the token axis, which changes nothing for the 16 tiles). -/
def rowN (t : ℕ) (p : Fin 1024) : Fin 16384 := ⟨(1024 * t + p.val) % 16384, Nat.mod_lt _ (by norm_num)⟩

theorem rowN_val (t : ℕ) (ht : t < 16) (p : Fin 1024) : (rowN t p).val = 1024 * t + p.val := by
  have := p.isLt
  show (1024 * t + p.val) % 16384 = _
  omega

/-- The 16 tiles of 1024 rows are the token axis: a sum over tiles and rows in a tile is the sum over tokens. -/
theorem sum_tiles {M : Type*} [AddCommMonoid M] (f : Fin 16384 → M) :
    ∑ t : Fin 16, ∑ p : Fin 1024, f (rowN t.val p) = ∑ r : Fin 16384, f r := by
  rw [← Fintype.sum_prod_type']
  refine Fintype.sum_equiv (finProdFinEquiv.trans (finCongr (by norm_num))) _ _ fun a => ?_
  congr 1
  apply Fin.ext
  have h1 := a.1.isLt
  have h2 := a.2.isLt
  rw [rowN_val _ h1]
  simp [finProdFinEquiv]
  omega

/-- The 0/1 weight of row `p` of tile `t` in segment `s`: one when the id word is the word of `s`. -/
def hot (t : ℕ) (p : Fin 1024) (s : Fin 16) : EReal :=
  if ids (ix1 (rowN t p)) = BitVec.ofNat 32 s.val then 1 else 0

/-- A tile's contribution to a segment's sum. -/
def tileSum (t : ℕ) (s : Fin 16) (j : Fin 512) : EReal :=
  ∑ p : Fin 1024, hot ids t p s * enc x W1 b1 W2 b2 (rowN t p) j

/-- A tile's contribution to a segment's count. -/
def tileCnt (t : ℕ) (s : Fin 16) : EReal := ∑ p : Fin 1024, hot ids t p s

/-- All tiles' contributions are the segment's sum. -/
theorem sum_tileSum (s : Fin 16) (j : Fin 512) :
    ∑ t : Fin 16, tileSum x ids W1 b1 W2 b2 t.val s j = segSum x ids W1 b1 W2 b2 s j := by
  unfold tileSum hot segSum inSeg
  rw [sum_tiles (fun r => (if ids (ix1 r) = BitVec.ofNat 32 s.val then (1 : EReal) else 0) * enc x W1 b1 W2 b2 r j),
    Finset.sum_filter]
  refine Finset.sum_congr rfl fun r _ => ?_
  by_cases h : ids (ix1 r) = BitVec.ofNat 32 s.val
  · rw [if_pos h, if_pos ((word_eq_iff _ _).mp h), one_mul]
  · rw [if_neg h, if_neg (fun h' => h ((word_eq_iff _ _).mpr h')), zero_mul]

/-- All tiles' contributions are the segment's count. -/
theorem sum_tileCnt (s : Fin 16) : ∑ t : Fin 16, tileCnt ids t.val s = segCnt ids s := by
  unfold tileCnt hot segCnt inSeg
  rw [sum_tiles (fun r => if ids (ix1 r) = BitVec.ofNat 32 s.val then (1 : EReal) else 0), Finset.sum_filter]
  refine Finset.sum_congr rfl fun r _ => ?_
  by_cases h : ids (ix1 r) = BitVec.ofNat 32 s.val
  · rw [if_pos h, if_pos ((word_eq_iff _ _).mp h)]
  · rw [if_neg h, if_neg (fun h' => h ((word_eq_iff _ _).mpr h'))]

/-! ## The running accumulation over the tiles, restarted every eighth tile -/

/-- What an accumulator holds after tile `n` when it restarts at every tile whose number is a multiple of 8:
    that tile's contribution alone at a restart, otherwise the previous contents plus the tile's contribution. -/
def runAcc (f : ℕ → EReal) : ℕ → EReal
  | 0 => f 0
  | n + 1 => if (n + 1) % 8 = 0 then f (n + 1) else runAcc f n + f (n + 1)

/-- After tiles 7 and 15 the two accumulators together hold all sixteen contributions. -/
theorem runAcc_total (f : ℕ → EReal) : runAcc f 7 + runAcc f 15 = ∑ t : Fin 16, f t.val := by
  simp only [runAcc, Fin.sum_univ_succ, Fin.sum_univ_zero]
  simp
  abel

end SegPool

end
-- ==== Proof.RefValue.lean ====
/-
  The reference computes the pooled segment mean.

  Its operations, read one at a time at an index: the two matrix products are sums over the contracted axis, the
  biases are broadcast along the rows, relu is the maximum with zero, and each of the two accumulating scatters
  leaves at a segment's row the initial zero plus the sum of the updates whose index, read signed, is that segment
  (updates whose index names no segment land nowhere). The scattered updates are the encoder's rows for the sum and
  ones for the count, so the quotient is `SegPool.pooled` of the argument arrays.
-/
import proofs.«424289_j32753420599620_3_alg».proof.Defs
import proofs.«424289_j32753420599620_3_alg».proof.Proof.Gen.ReferenceIdeal.Read
import proofs.«424289_j32753420599620_3_alg».proof.Proof.LibGatherScatter
import proofs.«424289_j32753420599620_3_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.GatherScatter SegPool

variable (x0 : (⟨S16384x512, .f32⟩ : BufTy).Contents (Elt Ideal)) (x1 : (⟨S16384, .i32⟩ : BufTy).Contents (Elt Ideal))
  (x2 : (⟨S512x2048, .f32⟩ : BufTy).Contents (Elt Ideal)) (x3 : (⟨S2048, .f32⟩ : BufTy).Contents (Elt Ideal))
  (x4 : (⟨S2048x512, .f32⟩ : BufTy).Contents (Elt Ideal)) (x5 : (⟨S512, .f32⟩ : BufTy).Contents (Elt Ideal))

/-- The hidden activation: the first product plus the bias row, then the maximum with zero. -/
theorem hid_apply (r : Fin 16384) (k : Fin 2048) :
    val_main_v4 (F := Ideal) x0 x2 x3 (ix2 r k) = hid x0 x2 x3 r k := by
  have el : ∀ d : Fin 512, lidx_main_v0 (ix2 r k) d = ix2 r d := fun d =>
    funext fun a => Fin.ext (by match a with | ⟨0, _⟩ => rfl | ⟨1, _⟩ => rfl)
  have er : ∀ d : Fin 512, ridx_main_v0 (ix2 r k) d = ix2 d k := fun d =>
    funext fun a => Fin.ext (by match a with | ⟨0, _⟩ => rfl | ⟨1, _⟩ => rfl)
  have eb : idx_main_v1 (idx_main_v2 (ix2 r k)) = ix1 k :=
    funext fun a => Fin.ext (by match a with | ⟨0, _⟩ => rfl)
  rw [val_main_v4_apply, val_main_v3_apply, val_main_v0_apply, val_main_v2_apply, val_main_v1_apply,
    val_main_call0_v0_apply, val_main_call0_cst_apply, eb]
  simp only [el, er, Ideal.addf_def, Ideal.maximumf_def, Ideal.ofBits_def, Ideal.ofBits_zero_f32]
  rfl

/-- The encoder's row: the second product of the hidden activation plus the bias row. -/
theorem enc_apply (r : Fin 16384) (j : Fin 512) :
    val_main_v8 (F := Ideal) x0 x2 x3 x4 x5 (ix2 r j) = enc x0 x2 x3 x4 x5 r j := by
  have el : ∀ k : Fin 2048, lidx_main_v5 (ix2 r j) k = ix2 r k := fun k =>
    funext fun a => Fin.ext (by match a with | ⟨0, _⟩ => rfl | ⟨1, _⟩ => rfl)
  have er : ∀ k : Fin 2048, ridx_main_v5 (ix2 r j) k = ix2 k j := fun k =>
    funext fun a => Fin.ext (by match a with | ⟨0, _⟩ => rfl | ⟨1, _⟩ => rfl)
  have eb : idx_main_v6 (idx_main_v7 (ix2 r j)) = ix1 j :=
    funext fun a => Fin.ext (by match a with | ⟨0, _⟩ => rfl)
  rw [val_main_v8_apply, val_main_v5_apply, val_main_v7_apply, val_main_v6_apply, eb]
  simp only [el, er, hid_apply, Ideal.addf_def]
  rfl

/-- The scatter of the encoder's rows leaves, at segment `s`, the sum over the segment's rows. -/
theorem sum_apply (s : Fin 16) (j : Fin 512) :
    val_main_v11 (F := Ideal) x0 x1 x2 x3 x4 x5 (ix2 s j) = segSum x0 x1 x2 x3 x4 x5 s j := by
  have ei : ∀ r : Fin 16384, idx_main_v10 (ix2 r (0 : Fin 1)) = ix1 r := fun r =>
    funext fun a => Fin.ext (by match a with | ⟨0, _⟩ => rfl)
  unfold val_main_v11
  show Host.scatterAdd (F := Ideal) (φ := .f32) (rowScatterDims 16 512 16384 Facts₀.scatter_S16x512_S16384x1_S16384x512_1_0_0_1_wf)
    (val_main_v9 (F := Ideal)) (val_main_v10 (F := Ideal) x1) (val_main_v8 (F := Ideal) x0 x2 x3 x4 x5) (ix2 s j) = _
  rw [rowScatterAdd_apply, val_main_v9_apply, val_main_cst_apply]
  simp only [Ideal.ofBits_def, Ideal.ofBits_zero_f32, zero_add, val_main_v10_apply, ei, enc_apply]
  rfl

/-- The scatter of ones leaves, at segment `s`, the number of the segment's rows. -/
theorem count_apply (s : Fin 16) : val_main_v15 (F := Ideal) x1 (ix1 s) = segCnt x1 s := by
  have ei : ∀ r : Fin 16384, idx_main_v14 (ix2 r (0 : Fin 1)) = ix1 r := fun r =>
    funext fun a => Fin.ext (by match a with | ⟨0, _⟩ => rfl)
  unfold val_main_v15
  show Host.scatterAdd (F := Ideal) (φ := .f32) (vecScatterDims 16 16384 Facts₀.scatter_S16_S16384x1_S16384_n_0_0_1_wf)
    (val_main_v13 (F := Ideal)) (val_main_v14 (F := Ideal) x1) (val_main_v12 (F := Ideal)) (ix1 s) = _
  rw [vecScatterAdd_apply, val_main_v13_apply, val_main_cst_1_apply]
  simp only [Ideal.ofBits_def, Ideal.ofBits_zero_f32, zero_add, val_main_v14_apply, ei, val_main_v12_apply,
    val_main_cst_0_apply, one_f32]
  rfl

/-- The reference's result is the pooled segment mean of its arguments. -/
theorem ref_eq : val_main_v20 (F := Ideal) x0 x1 x2 x3 x4 x5 = pooled x0 x1 x2 x3 x4 x5 := by
  funext i
  obtain ⟨s, j, rfl⟩ : ∃ (s : Fin 16) (j : Fin 512), i = ix2 s j := ⟨i 0, i 1, eq_ix2 i⟩
  have ec : idx_main_v18 (idx_main_v19 (ix2 s j)) = ix1 s :=
    funext fun a => Fin.ext (by match a with | ⟨0, _⟩ => rfl)
  rw [val_main_v20_apply, val_main_v19_apply, val_main_v18_apply, val_main_v17_apply, val_main_v16_apply,
    val_main_cst_2_apply, ec, count_apply, sum_apply]
  rfl

end Cert.ReferenceIdeal.RefValue

end
-- ==== Proof.KPieces.lean ====
/-
  What one run of the kernel's body leaves in its two output blocks, as values.

  At a tile where the accumulators restart the body first stores zeros into both output blocks, then reads them back;
  elsewhere it reads what the tile before left. In both cases the last store into each block covers it, so the block
  ends holding that store's value: the segment-sum block `acc + onehotᵀ·z`, the count block `acc + column sums of
  onehot`, with `acc` the zeros at a restart and the previous contents otherwise.
-/
import proofs.«424289_j32753420599620_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Away from a restart the segment-sum block ends at the body's accumulation over its previous contents. -/
theorem out_B_6 (c : Dev nD) (i : grid0.Coords) (arg2 : Memref sig .tc .vmem S1024x512 .bf16) (harg2 : arg2.IsWhole) (arg3 : Memref sig .tc .vmem S1024 .i32) (harg3 : arg3.IsWhole) (arg4 : Memref sig .tc .vmem S512x2048 .bf16) (harg4 : arg4.IsWhole) (arg5 : Memref sig .tc .vmem S2048 .f32) (harg5 : arg5.IsWhole) (arg6 : Memref sig .tc .vmem S2048x512 .bf16) (harg6 : arg6.IsWhole) (arg7 : Memref sig .tc .vmem S512 .f32) (harg7 : arg7.IsWhole) (arg8 : Memref sig .tc .vmem S1x16x512 .f32) (harg8 : arg8.IsWhole) (arg9 : Memref sig .tc .vmem S1x16x128 .f32) (harg9 : arg9.IsWhole) (hc0 : ¬cond0_0 i)
    (x0 : Vec F S1024x512 .bf16) (x1 : Vec F S1024 .i32) (x2 : Vec F S512x2048 .bf16) (x3 : Vec F S2048 .f32) (x4 : Vec F S2048x512 .bf16) (x5 : Vec F S512 .f32) (xo6 : Vec F S1x16x512 .f32) (xo7 : Vec F S1x16x128 .f32) :
    out0_B_6 c i arg2 harg2 arg3 harg3 arg4 harg4 arg5 harg5 arg6 harg6 arg7 harg7 arg8 harg8 arg9 harg9 hc0 x0 x1 x2 x3 x4 x5 xo6 xo7
      = k0_pay5 x0 x2 x3 x4 x5 x1 xo6 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xo6 xo7)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread,
    View.ld_unit_zero (S := S1024x512) hz2, View.ld_unit_zero (S := S512x2048) hz2, View.ld_unit_zero (S := S2048x512) hz2, View.ld_unit_zero (S := S2048) hz1, View.ld_unit_zero (S := S512) hz1, View.ld_unit_zero (S := S1024) hz1,
    View.ld_unit_zero (S := S1x16x512) hz3, View.ld_unit_zero (S := S1x16x128) hz3]

/-- Away from a restart the count block ends at the body's accumulation over its previous contents. -/
theorem out_B_7 (c : Dev nD) (i : grid0.Coords) (arg2 : Memref sig .tc .vmem S1024x512 .bf16) (harg2 : arg2.IsWhole) (arg3 : Memref sig .tc .vmem S1024 .i32) (harg3 : arg3.IsWhole) (arg4 : Memref sig .tc .vmem S512x2048 .bf16) (harg4 : arg4.IsWhole) (arg5 : Memref sig .tc .vmem S2048 .f32) (harg5 : arg5.IsWhole) (arg6 : Memref sig .tc .vmem S2048x512 .bf16) (harg6 : arg6.IsWhole) (arg7 : Memref sig .tc .vmem S512 .f32) (harg7 : arg7.IsWhole) (arg8 : Memref sig .tc .vmem S1x16x512 .f32) (harg8 : arg8.IsWhole) (arg9 : Memref sig .tc .vmem S1x16x128 .f32) (harg9 : arg9.IsWhole) (hc0 : ¬cond0_0 i)
    (x0 : Vec F S1024x512 .bf16) (x1 : Vec F S1024 .i32) (x2 : Vec F S512x2048 .bf16) (x3 : Vec F S2048 .f32) (x4 : Vec F S2048x512 .bf16) (x5 : Vec F S512 .f32) (xo6 : Vec F S1x16x512 .f32) (xo7 : Vec F S1x16x128 .f32) :
    out0_B_7 c i arg2 harg2 arg3 harg3 arg4 harg4 arg5 harg5 arg6 harg6 arg7 harg7 arg8 harg8 arg9 harg9 hc0 x0 x1 x2 x3 x4 x5 xo6 xo7
      = k0_pay1 (k0_pay4 x1) xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 x5 xo6 xo7)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread,
    View.ld_unit_zero (S := S1024x512) hz2, View.ld_unit_zero (S := S512x2048) hz2, View.ld_unit_zero (S := S2048x512) hz2, View.ld_unit_zero (S := S2048) hz1, View.ld_unit_zero (S := S512) hz1, View.ld_unit_zero (S := S1024) hz1,
    View.ld_unit_zero (S := S1x16x512) hz3, View.ld_unit_zero (S := S1x16x128) hz3]

/-- At a restart the segment-sum block ends at the body's accumulation over the zeros it has just stored. -/
theorem out_A_6 (c : Dev nD) (i : grid0.Coords) (arg2 : Memref sig .tc .vmem S1024x512 .bf16) (harg2 : arg2.IsWhole) (arg3 : Memref sig .tc .vmem S1024 .i32) (harg3 : arg3.IsWhole) (arg4 : Memref sig .tc .vmem S512x2048 .bf16) (harg4 : arg4.IsWhole) (arg5 : Memref sig .tc .vmem S2048 .f32) (harg5 : arg5.IsWhole) (arg6 : Memref sig .tc .vmem S2048x512 .bf16) (harg6 : arg6.IsWhole) (arg7 : Memref sig .tc .vmem S512 .f32) (harg7 : arg7.IsWhole) (arg8 : Memref sig .tc .vmem S1x16x512 .f32) (harg8 : arg8.IsWhole) (arg9 : Memref sig .tc .vmem S1x16x128 .f32) (harg9 : arg9.IsWhole) (hc0 : cond0_0 i)
    (x0 : Vec F S1024x512 .bf16) (x1 : Vec F S1024 .i32) (x2 : Vec F S512x2048 .bf16) (x3 : Vec F S2048 .f32) (x4 : Vec F S2048x512 .bf16) (x5 : Vec F S512 .f32) :
    out0_A_6 c i arg2 harg2 arg3 harg3 arg4 harg4 arg5 harg5 arg6 harg6 arg7 harg7 arg8 harg8 arg9 harg9 hc0 x0 x1 x2 x3 x4 x5
      = k0_pay5 x0 x2 x3 x4 x5 x1 (k0_pay2 (F := F)) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x16x512) hz3, View.readCov_unit_zero (S := S1x16x512) _ hz3]
  simp only [View.readAt_eq_ld, harg2.read_unread, harg3.read_unread, harg4.read_unread, harg5.read_unread, harg6.read_unread, harg7.read_unread, harg8.read_unread, harg9.read_unread,
    View.ld_unit_zero (S := S1024x512) hz2, View.ld_unit_zero (S := S512x2048) hz2, View.ld_unit_zero (S := S2048x512) hz2, View.ld_unit_zero (S := S2048) hz1, View.ld_unit_zero (S := S512) hz1, View.ld_unit_zero (S := S1024) hz1,
    View.ld_unit_zero (S := S1x16x512) hz3, View.ld_unit_zero (S := S1x16x128) hz3]

/-- At a restart the count block ends at the body's accumulation over the zeros it has just stored. -/
theorem out_A_7 (c : Dev nD) (i : grid0.Coords) (arg2 : Memref sig .tc .vmem S1024x512 .bf16) (harg2 : arg2.IsWhole) (arg3 : Memref sig .tc .vmem S1024 .i32) (harg3 : arg3.IsWhole) (arg4 : Memref sig .tc .vmem S512x2048 .bf16) (harg4 : arg4.IsWhole) (arg5 : Memref sig .tc .vmem S2048 .f32) (harg5 : arg5.IsWhole) (arg6 : Memref sig .tc .vmem S2048x512 .bf16) (harg6 : arg6.IsWhole) (arg7 : Memref sig .tc .vmem S512 .f32) (harg7 : arg7.IsWhole) (arg8 : Memref sig .tc .vmem S1x16x512 .f32) (harg8 : arg8.IsWhole) (arg9 : Memref sig .tc .vmem S1x16x128 .f32) (harg9 : arg9.IsWhole) (hc0 : cond0_0 i)
    (x0 : Vec F S1024x512 .bf16) (x1 : Vec F S1024 .i32) (x2 : Vec F S512x2048 .bf16) (x3 : Vec F S2048 .f32) (x4 : Vec F S2048x512 .bf16) (x5 : Vec F S512 .f32) :
    out0_A_7 c i arg2 harg2 arg3 harg3 arg4 harg4 arg5 harg5 arg6 harg6 arg7 harg7 arg8 harg8 arg9 harg9 hc0 x0 x1 x2 x3 x4 x5
      = k0_pay1 (k0_pay4 x1) (k0_pay3 (F := F)) := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x16x128) hz3, View.readCov_unit_zero (S := S1x16x128) _ hz3]
  simp only [View.readAt_eq_ld, harg2.read_unread, harg3.read_unread, harg4.read_unread, harg5.read_unread, harg6.read_unread, harg7.read_unread, harg8.read_unread, harg9.read_unread,
    View.ld_unit_zero (S := S1024x512) hz2, View.ld_unit_zero (S := S512x2048) hz2, View.ld_unit_zero (S := S2048x512) hz2, View.ld_unit_zero (S := S2048) hz1, View.ld_unit_zero (S := S512) hz1, View.ld_unit_zero (S := S1024) hz1,
    View.ld_unit_zero (S := S1x16x512) hz3, View.ld_unit_zero (S := S1x16x128) hz3]

end Cert.KernelIdeal.KValue

end
-- ==== Proof.LibKeepdimsColumn.lean ====
/-
  A sum over the last axis kept as a column (jnp.sum(x, axis=1, keepdims=True)), read at an index.

  A lane sum of an [a, b] array along its second axis leaves an [a] vector; keepdims casts it to an [a, 1] column,
  which is then broadcast over b columns, or (on the host) transposed to a [1, a] row. Each of these re-layings reads its
  operand at the evident index, for any extents a and b:
    the lane sum at row p is the sum over the row,
    the [a] vector cast to [a, 1], at (i, u), is the vector at i,
    the [a, 1] column broadcast to [a, b], at (p, c), is the column at row p,
    the [a, 1] column transposed to [1, a], at (u, i), is the column at row i.
-/
import Idealize.ShloMosaic.Lib.Pipeline.Value
import Idealize.ShloMosaic.Lib.ValueIdx
import Idealize.ShloMosaic.PureOps.Ideal.Laws

noncomputable section

namespace Idealize.ShloMosaic.KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column transposed to a `[1, a]` row reads, at `(u, i)`, the column at row `i`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_apply _ x h _ _ fun c => match c with | ⟨0, _⟩ => rfl | ⟨1, _⟩ => rfl

/-- On the extended reals a lane sum of an `[a, b]` array along its second axis, from the neutral accumulator, reads at
    row `p` as the sum over `d` of the array at `(p, d)`. -/
theorem laneSum_ab_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ d : Fin b, v (ix2 p d) := by
  rw [Ideal.multiReduction_add_single]
  refine Finset.sum_congr rfl fun d _ => congrArg v (funext fun c => Fin.ext ?_)
  match c with
  | ⟨0, _⟩ => rfl
  | ⟨1, _⟩ => rfl

end Idealize.ShloMosaic.KeepdimsColumn

end
-- ==== Proof.KPayload.lean ====
/-
  The body's arithmetic at an index, over the extended reals.

  With the tile's input blocks written as rows of the whole arrays, the segment-sum block's new value at segment s and
  column j is its old value plus Σ_p onehot[p, s] · z[p, j], where z is the encoder's output for the tile's rows
  (the two matrix products as sums over the contracted axis, the biases broadcast along the rows, relu the maximum
  with zero, the changes of float format the identity) and onehot[p, s] is 1 when row p's id word is the word of s,
  else 0. The count block's new value is its old value plus Σ_p onehot[p, s], in every lane.
-/
import proofs.«424289_j32753420599620_3_alg».proof.Proof.Gen.KernelIdeal.Skeleton
import proofs.«424289_j32753420599620_3_alg».proof.Proof.LibKeepdimsColumn
import proofs.«424289_j32753420599620_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KValue

open Cert.KernelIdeal Cert.KernelIdeal.Gen
open Idealize.ShloMosaic Idealize.ShloMosaic.ValueIdx Idealize.ShloMosaic.KeepdimsColumn SegPool

/-! ### The product `dot_S1024x512_S512x2048_S1024x2048_1_0_0_1_n_n` -/

theorem lhs1_0 (i : S1024x2048.Idx) (q : dot_S1024x512_S512x2048_S1024x2048_1_0_0_1_n_n.contr.Idx) :
    (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
theorem lhs1_1 (i : S1024x2048.Idx) (q : dot_S1024x512_S512x2048_S1024x2048_1_0_0_1_n_n.contr.Idx) :
    (dot_S1024x512_S512x2048_S1024x2048_1_0_0_1_n_n.lhsIdx i q 1).val = (q ⟨0, by decide⟩).val :=
  dot_S1024x512_S512x2048_S1024x2048_1_0_0_1_n_n.lhsIdx_val_of_single rfl i q
theorem rhs1_0 (i : S1024x2048.Idx) (q : dot_S1024x512_S512x2048_S1024x2048_1_0_0_1_n_n.contr.Idx) :
    (dot_S1024x512_S512x2048_S1024x2048_1_0_0_1_n_n.rhsIdx i q 0).val = (q ⟨0, by decide⟩).val :=
  dot_S1024x512_S512x2048_S1024x2048_1_0_0_1_n_n.rhsIdx_val_of_single rfl i q
theorem rhs1_1 (i : S1024x2048.Idx) (q : dot_S1024x512_S512x2048_S1024x2048_1_0_0_1_n_n.contr.Idx) :
    (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The product into a zero accumulator, at row `p` and column `j`: the sum over the contracted axis. -/
theorem matmul1_apply {φ₁ φ₂ : FTy} (prec : Option ContractPrecision) (L : FVec Ideal S1024x512 φ₁) (R : FVec Ideal S512x2048 φ₂) (p : Fin 1024) (j : Fin 2048) :
    matmul (F := Ideal) dot_S1024x512_S512x2048_S1024x2048_1_0_0_1_n_n prec L R (constant S1024x2048 .f32 0x00000000#32) (ix2 p j) = ∑ k : Fin 512, L (ix2 p k) * R (ix2 k j) := by
  show FloatOps.matmul dot_S1024x512_S512x2048_S1024x2048_1_0_0_1_n_n prec L R (constant S1024x2048 .f32 0x00000000#32) (ix2 p j) = _
  rw [Ideal.matmul_constant_zero_apply, ← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  have el : dot_S1024x512_S512x2048_S1024x2048_1_0_0_1_n_n.lhsIdx (ix2 p j) ((contrEquiv1 dot_S1024x512_S512x2048_S1024x2048_1_0_0_1_n_n 512 rfl rfl).symm k) = ix2 p k := funext fun a => Fin.ext (by
    match a with
    | ⟨0, _⟩ => exact lhs1_0 _ _
    | ⟨1, _⟩ => exact (lhs1_1 _ _).trans hk)
  have er : dot_S1024x512_S512x2048_S1024x2048_1_0_0_1_n_n.rhsIdx (ix2 p j) ((contrEquiv1 dot_S1024x512_S512x2048_S1024x2048_1_0_0_1_n_n 512 rfl rfl).symm k) = ix2 k j := funext fun a => Fin.ext (by
    match a with
    | ⟨0, _⟩ => exact (rhs1_0 _ _).trans hk
    | ⟨1, _⟩ => exact rhs1_1 _ _)
  rw [el, er]

/-! ### The product `dot_S1024x2048_S2048x512_S1024x512_1_0_0_1_n_n` -/

theorem lhs2_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
theorem lhs2_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
theorem rhs2_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
theorem rhs2_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- The product into a zero accumulator, at row `p` and column `j`: the sum over the contracted axis. -/
theorem matmul2_apply {φ₁ φ₂ : FTy} (prec : Option ContractPrecision) (L : FVec Ideal S1024x2048 φ₁) (R : FVec Ideal S2048x512 φ₂) (p : Fin 1024) (j : Fin 512) :
    matmul (F := Ideal) dot_S1024x2048_S2048x512_S1024x512_1_0_0_1_n_n prec L R (constant S1024x512 .f32 0x00000000#32) (ix2 p j) = ∑ k : Fin 2048, L (ix2 p k) * R (ix2 k j) := by
  show FloatOps.matmul dot_S1024x2048_S2048x512_S1024x512_1_0_0_1_n_n prec L R (constant S1024x512 .f32 0x00000000#32) (ix2 p j) = _
  rw [Ideal.matmul_constant_zero_apply, ← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 p j) ((contrEquiv1 dot_S1024x2048_S2048x512_S1024x512_1_0_0_1_n_n 2048 rfl rfl).symm k) = ix2 p k := funext fun a => Fin.ext (by
    match a with
    | ⟨0, _⟩ => exact lhs2_0 _ _
    | ⟨1, _⟩ => exact (lhs2_1 _ _).trans hk)
  have er : dot_S1024x2048_S2048x512_S1024x512_1_0_0_1_n_n.rhsIdx (ix2 p j) ((contrEquiv1 dot_S1024x2048_S2048x512_S1024x512_1_0_0_1_n_n 2048 rfl rfl).symm k) = ix2 k j := funext fun a => Fin.ext (by
    match a with
    | ⟨0, _⟩ => exact (rhs2_0 _ _).trans hk
    | ⟨1, _⟩ => exact rhs2_1 _ _)
  rw [el, er]

/-! ### The product `dot_S1024x16_S1024x512_S16x512_0_0_1_1_n_n` -/

theorem lhs3_1 (i : S16x512.Idx) (q : dot_S1024x16_S1024x512_S16x512_0_0_1_1_n_n.contr.Idx) :
    (dot_S1024x16_S1024x512_S16x512_0_0_1_1_n_n.lhsIdx i q 1).val = (i 0).val := by
  unfold DotDims.lhsIdx
  rw [dif_neg (show ¬(1 : Fin S1024x16.rank) ∈ dot_S1024x16_S1024x512_S16x512_0_0_1_1_n_n.lhsBatch by decide), dif_pos (show (1 : Fin S1024x16.rank) ∈ dot_S1024x16_S1024x512_S16x512_0_0_1_1_n_n.lhsNonContracting by decide)]
  rfl
theorem lhs3_0 (i : S16x512.Idx) (q : dot_S1024x16_S1024x512_S16x512_0_0_1_1_n_n.contr.Idx) :
    (dot_S1024x16_S1024x512_S16x512_0_0_1_1_n_n.lhsIdx i q 0).val = (q ⟨0, by decide⟩).val :=
  dot_S1024x16_S1024x512_S16x512_0_0_1_1_n_n.lhsIdx_val_of_single rfl i q
theorem rhs3_0 (i : S16x512.Idx) (q : dot_S1024x16_S1024x512_S16x512_0_0_1_1_n_n.contr.Idx) :
    (dot_S1024x16_S1024x512_S16x512_0_0_1_1_n_n.rhsIdx i q 0).val = (q ⟨0, by decide⟩).val :=
  dot_S1024x16_S1024x512_S16x512_0_0_1_1_n_n.rhsIdx_val_of_single rfl i q
theorem rhs3_1 (i : S16x512.Idx) (q : dot_S1024x16_S1024x512_S16x512_0_0_1_1_n_n.contr.Idx) :
    (dot_S1024x16_S1024x512_S16x512_0_0_1_1_n_n.rhsIdx i q 1).val = (i 1).val := by
  unfold DotDims.rhsIdx
  rw [dif_neg (show ¬(1 : Fin S1024x512.rank) ∈ dot_S1024x16_S1024x512_S16x512_0_0_1_1_n_n.rhsBatch by decide), dif_pos (show (1 : Fin S1024x512.rank) ∈ dot_S1024x16_S1024x512_S16x512_0_0_1_1_n_n.rhsNonContracting by decide)]
  rfl

/-- The product of the transposed one-hot block with the encoder's block into a zero accumulator, at segment `s` and
    column `j`: the sum over the tile's rows. -/
theorem matmul3_apply {φ₁ φ₂ : FTy} (prec : Option ContractPrecision) (L : FVec Ideal S1024x16 φ₁) (R : FVec Ideal S1024x512 φ₂) (s : Fin 16) (j : Fin 512) :
    matmul (F := Ideal) dot_S1024x16_S1024x512_S16x512_0_0_1_1_n_n prec L R (constant S16x512 .f32 0x00000000#32) (ix2 s j) = ∑ p : Fin 1024, L (ix2 p s) * R (ix2 p j) := by
  show FloatOps.matmul dot_S1024x16_S1024x512_S16x512_0_0_1_1_n_n prec L R (constant S16x512 .f32 0x00000000#32) (ix2 s j) = _
  rw [Ideal.matmul_constant_zero_apply, ← Equiv.sum_comp (contrEquiv1 dot_S1024x16_S1024x512_S16x512_0_0_1_1_n_n 1024 rfl rfl).symm]
  refine Finset.sum_congr rfl fun p _ => ?_
  have hk := contrEquiv1_symm_val dot_S1024x16_S1024x512_S16x512_0_0_1_1_n_n 1024 rfl rfl p
  have el : dot_S1024x16_S1024x512_S16x512_0_0_1_1_n_n.lhsIdx (ix2 s j) ((contrEquiv1 dot_S1024x16_S1024x512_S16x512_0_0_1_1_n_n 1024 rfl rfl).symm p) = ix2 p s := funext fun a => Fin.ext (by
    match a with
    | ⟨0, _⟩ => exact (lhs3_0 _ _).trans hk
    | ⟨1, _⟩ => exact lhs3_1 _ _)
  have er : dot_S1024x16_S1024x512_S16x512_0_0_1_1_n_n.rhsIdx (ix2 s j) ((contrEquiv1 dot_S1024x16_S1024x512_S16x512_0_0_1_1_n_n 1024 rfl rfl).symm p) = ix2 p j := funext fun a => Fin.ext (by
    match a with
    | ⟨0, _⟩ => exact (rhs3_0 _ _).trans hk
    | ⟨1, _⟩ => exact rhs3_1 _ _)
  rw [el, er]

/-! ### The one-hot block -/

/-- The 0/1 weight as the body computes it: the comparison's bit, widened and read as a signed integer. -/
theorem hot_word (a : BitVec 32) (s : Fin 16) :
    (FloatOps.sitofp (F := Ideal) .f32 ((IntOp.cmpi .eq a (BitVec.ofNat 32 s.val)).setWidth 32) : EReal)
      = if a = BitVec.ofNat 32 s.val then 1 else 0 := by
  show (((((IntOp.cmpi .eq a (BitVec.ofNat 32 s.val)).setWidth 32).toInt : ℝ)) : EReal) = _
  by_cases h : a = BitVec.ofNat 32 s.val
  · rw [if_pos h, h]
    simp [IntOp.cmpi]
  · rw [if_neg h]
    have hb : (a == BitVec.ofNat 32 s.val) = false := beq_eq_false_iff_ne.mpr h
    simp [IntOp.cmpi, hb]

/-- The one-hot block at row `p` and segment `s`. -/
theorem pay4_apply (idb : Vec Ideal S1024 .i32) (p : Fin 1024) (s : Fin 16) :
    k0_pay4 (F := Ideal) idb (ix2 p s) = if idb (ix1 p) = BitVec.ofNat 32 s.val then (1 : EReal) else 0 := by
  unfold k0_pay4
  show FloatOps.sitofp (F := Ideal) .f32 ((IntOp.cmpi .eq
    (broadcastTo S1024x16 (shapeCast S1024x1 idb shapeCasts_S1024_S1024x1) broadcasts_S1024x1_S1024x16 (ix2 p s))
    (iota .tc S1024x16 32 [1] iota_S1024x16_d1_w32 (ix2 p s))).setWidth 32) = _
  rw [broadcastTo_a1_ab_apply, shapeCast_a_a1_apply, iota_single_apply]
  exact hot_word _ s

/-! ### The encoder's block and the two accumulations -/

section Blocks
variable {F : FTy → Type} [FloatOps F]

/-- The tile's hidden activations: the first product plus the bias row, then the maximum with zero. -/
def hidBlock (xb : Vec F S1024x512 .bf16) (w1 : Vec F S512x2048 .bf16) (bb1 : Vec F S2048 .f32) : FVec F S1024x2048 .f32 :=
  maximumf (addf (matmul dot_S1024x512_S512x2048_S1024x2048_1_0_0_1_n_n none (shapeCast S1024x512 xb shapeCasts_S1024x512_S1024x512)
        (shapeCast S512x2048 w1 shapeCasts_S512x2048_S512x2048) (constant S1024x2048 .f32 0x00000000#32))
      (broadcastTo S1024x2048 (shapeCast S1x2048 bb1 shapeCasts_S2048_S1x2048) broadcasts_S1x2048_S1024x2048))
    (broadcast S1024x2048 (Scalar.ofBits .f32 0x00000000#32))

/-- The tile's encoder outputs: the second product of the hidden activations (their change of format between) plus the
    bias row. -/
def encBlock (xb : Vec F S1024x512 .bf16) (w1 : Vec F S512x2048 .bf16) (bb1 : Vec F S2048 .f32) (w2 : Vec F S2048x512 .bf16)
    (bb2 : Vec F S512 .f32) : FVec F S1024x512 .f32 :=
  addf (matmul dot_S1024x2048_S2048x512_S1024x512_1_0_0_1_n_n none (truncf .bf16 (hidBlock xb w1 bb1) bitsLt_bf16_f32)
      (shapeCast S2048x512 w2 shapeCasts_S2048x512_S2048x512) (constant S1024x512 .f32 0x00000000#32))
    (broadcastTo S1024x512 (shapeCast S1x512 bb2 shapeCasts_S512_S1x512) broadcasts_S1x512_S1024x512)

/-- The segment-sum block's new value: its old value plus the transposed one-hot block times the encoder's block. -/
theorem pay5_eq (xb : Vec F S1024x512 .bf16) (w1 : Vec F S512x2048 .bf16) (bb1 : Vec F S2048 .f32) (w2 : Vec F S2048x512 .bf16)
    (bb2 : Vec F S512 .f32) (idb : Vec F S1024 .i32) (acc : Vec F S1x16x512 .f32) :
    k0_pay5 xb w1 bb1 w2 bb2 idb acc
      = shapeCast S1x16x512 (addf (shapeCast S16x512 acc shapeCasts_S1x16x512_S16x512)
          (matmul dot_S1024x16_S1024x512_S16x512_0_0_1_1_n_n (some .fp32) (k0_pay4 idb) (encBlock xb w1 bb1 w2 bb2) (constant S16x512 .f32 0x00000000#32)))
        shapeCasts_S16x512_S1x16x512 := rfl

end Blocks

variable (x : XArr) (ids : IdArr) (W1 : W1Arr) (b1 : B1Arr) (W2 : W2Arr) (b2 : B2Arr)

/-- A tile's hidden activations, when the tile's block of `x` is rows `rowN t ·` of the array. -/
theorem hidBlock_apply (t : ℕ) (xb : Vec Ideal S1024x512 .bf16)
    (hx : ∀ (p : Fin 1024) (d : Fin 512), xb (ix2 p d) = x (ix2 (rowN t p) d)) (p : Fin 1024) (k : Fin 2048) :
    hidBlock (F := Ideal) xb W1 b1 (ix2 p k) = hid x W1 b1 (rowN t p) k := by
  unfold hidBlock hid
  show max ((matmul (F := Ideal) dot_S1024x512_S512x2048_S1024x2048_1_0_0_1_n_n none _ _ _ (ix2 p k)) + (broadcastTo S1024x2048 _ _ (ix2 p k))) (Ideal.ofBits .f32 0x00000000#32) = _
  rw [matmul1_apply, broadcastTo_1b_ab_apply, shapeCast_a_1a_apply, shapeCast_self, shapeCast_self, Ideal.ofBits_zero_f32]
  simp only [hx]

/-- A tile's encoder outputs, likewise. -/
theorem encBlock_apply (t : ℕ) (xb : Vec Ideal S1024x512 .bf16)
    (hx : ∀ (p : Fin 1024) (d : Fin 512), xb (ix2 p d) = x (ix2 (rowN t p) d)) (p : Fin 1024) (j : Fin 512) :
    encBlock (F := Ideal) xb W1 b1 W2 b2 (ix2 p j) = enc x W1 b1 W2 b2 (rowN t p) j := by
  unfold encBlock enc
  show (matmul (F := Ideal) dot_S1024x2048_S2048x512_S1024x512_1_0_0_1_n_n none _ _ _ (ix2 p j)) + (broadcastTo S1024x512 _ _ (ix2 p j)) = _
  rw [matmul2_apply, broadcastTo_1b_ab_apply, shapeCast_a_1a_apply, shapeCast_self]
  refine congrArg (· + b2 (ix1 j)) (Finset.sum_congr rfl fun k _ => ?_)
  show hidBlock (F := Ideal) xb W1 b1 (ix2 p k) * _ = _
  rw [hidBlock_apply x W1 b1 t xb hx]

/-- THE SEGMENT-SUM BLOCK after the body, at segment `s` and column `j`: its old value plus the tile's contribution. -/
theorem pay5_apply (t : ℕ) (xb : Vec Ideal S1024x512 .bf16) (idb : Vec Ideal S1024 .i32) (acc : Vec Ideal S1x16x512 .f32)
    (hx : ∀ (p : Fin 1024) (d : Fin 512), xb (ix2 p d) = x (ix2 (rowN t p) d))
    (hid : ∀ p : Fin 1024, idb (ix1 p) = ids (ix1 (rowN t p))) (s : Fin 16) (j : Fin 512) :
    k0_pay5 (F := Ideal) xb W1 b1 W2 b2 idb acc (ix3 (0 : Fin 1) s j)
      = acc (ix3 (0 : Fin 1) s j) + tileSum x ids W1 b1 W2 b2 t s j := by
  rw [pay5_eq, shapeCast_ab_1ab_apply]
  show (shapeCast S16x512 acc _ (ix2 s j)) + (matmul (F := Ideal) dot_S1024x16_S1024x512_S16x512_0_0_1_1_n_n (some .fp32) _ _ _ (ix2 s j)) = _
  rw [shapeCast_1ab_ab_apply, matmul3_apply]
  unfold tileSum hot
  refine congrArg (acc (ix3 (0 : Fin 1) s j) + ·) (Finset.sum_congr rfl fun p _ => ?_)
  rw [pay4_apply, encBlock_apply x W1 b1 W2 b2 t xb hx, hid]

/-- The zeros a restart stores into the segment-sum block. -/
theorem pay2_apply (i : S1x16x512.Idx) : k0_pay2 (F := Ideal) i = 0 := by
  unfold k0_pay2
  obtain ⟨u, s, j, rfl⟩ : ∃ (u : Fin 1) (s : Fin 16) (j : Fin 512), i = ix3 u s j := ⟨i 0, i 1, i 2, eq_ix3 i⟩
  rw [shapeCast_ab_1ab_apply]
  exact Ideal.ofBits_zero_f32

/-- The zeros a restart stores into the count block. -/
theorem pay3_apply (i : S1x16x128.Idx) : k0_pay3 (F := Ideal) i = 0 := by
  unfold k0_pay3
  obtain ⟨u, s, l, rfl⟩ : ∃ (u : Fin 1) (s : Fin 16) (l : Fin 128), i = ix3 u s l := ⟨i 0, i 1, i 2, eq_ix3 i⟩
  rw [shapeCast_ab_1ab_apply]
  exact Ideal.ofBits_zero_f32

/-- A sum of a [1024, 16] block along its rows, from the zero accumulator, at column `s`: the sum over the rows. -/
theorem colSum_apply (v : FVec Ideal S1024x16 .f32) (hacc : (0x00000000#32 : BitVec 32) = 0x00000000#32) (s : Fin 16) :
    multiReduction .add [0] S16 v 0x00000000#32 reduces_S1024x16_S16 (.inl rfl) hacc (ix1 s) = ∑ p : Fin 1024, v (ix2 p s) := by
  refine (Ideal.multiReduction_add_single v 0x00000000#32 reduces_S1024x16_S16 (.inl rfl) hacc (ix1 s)).trans ?_
  refine Finset.sum_congr rfl fun p _ => congrArg v (funext fun a => Fin.ext ?_)
  match a with
  | ⟨0, _⟩ => rfl
  | ⟨1, _⟩ => rfl

/-- THE COUNT BLOCK after the body, at segment `s` in any lane: its old value plus the tile's count. -/
theorem pay1_apply (t : ℕ) (idb : Vec Ideal S1024 .i32) (acc : Vec Ideal S1x16x128 .f32)
    (hid : ∀ p : Fin 1024, idb (ix1 p) = ids (ix1 (rowN t p))) (s : Fin 16) (l : Fin 128) :
    k0_pay1 (F := Ideal) (k0_pay4 idb) acc (ix3 (0 : Fin 1) s l) = acc (ix3 (0 : Fin 1) s l) + tileCnt ids t s := by
  unfold k0_pay1
  dsimp only
  rw [shapeCast_ab_1ab_apply]
  show (shapeCast S16x128 acc _ (ix2 s l)) + (broadcastTo S16x128 _ _ (ix2 s l)) = _
  rw [shapeCast_1ab_ab_apply, broadcastTo_a1_ab_apply, shapeCast_self, shapeCast_a_a1_apply]
  refine congrArg (acc (ix3 (0 : Fin 1) s l) + ·) ((colSum_apply (k0_pay4 idb) _ s).trans ?_)
  unfold tileCnt hot
  refine Finset.sum_congr rfl fun p _ => ?_
  rw [pay4_apply, hid]

end Cert.KernelIdeal.KValue

end
-- ==== Proof.KAccum.lean ====
/-
  What the two output blocks hold after each grid point, over the extended reals.

  Grid point t (t = 8·core + step) stages rows 1024·t … 1024·t + 1023 of x and of the segment ids, and the whole weight
  and bias arrays; the arrays the kernel is handed are the arguments with x, W1, W2 changed to bf16, which changes no
  value here. So after point t the segment-sum block holds, at segment s and column j, the running accumulation of
  the tiles' contributions restarted at t = 0 and t = 8, and the count block the same accumulation of the tiles'
  counts, in every lane: by induction on the point.
-/
import proofs.«424289_j32753420599620_3_alg».proof.Proof.Gen.KernelIdeal.Frame
import proofs.«424289_j32753420599620_3_alg».proof.Proof.KPieces
import proofs.«424289_j32753420599620_3_alg».proof.Proof.KPayload
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen
open Idealize.ShloMosaic.ValueIdx SegPool

section Generic
variable {F : FTy → Type} [FloatOps F]
variable (m : (ℓ : Loc nD τ sig) → Buf (Elt F) ℓ)

/-- The input blocks at a grid point, by their literal types. -/
abbrev xblk (c : Dev nD) (t : Fin cfg0.N) : Vec F S1024x512 .bf16 := iblk m c 0 t
abbrev idblk (c : Dev nD) (t : Fin cfg0.N) : Vec F S1024 .i32 := iblk m c 1 t
abbrev w1blk (c : Dev nD) (t : Fin cfg0.N) : Vec F S512x2048 .bf16 := iblk m c 2 t
abbrev b1blk (c : Dev nD) (t : Fin cfg0.N) : Vec F S2048 .f32 := iblk m c 3 t
abbrev w2blk (c : Dev nD) (t : Fin cfg0.N) : Vec F S2048x512 .bf16 := iblk m c 4 t
abbrev b2blk (c : Dev nD) (t : Fin cfg0.N) : Vec F S512 .f32 := iblk m c 5 t

/-- The windows' block indices over the grid: the two tiled inputs are at block `t`, the four resident ones at block 0. -/
theorem idx_facts : ∀ t : Fin cfg0.N,
    win0_0.index t (0 : Fin 2) = t.val ∧ win0_0.index t (1 : Fin 2) = 0 ∧ win0_1.index t (0 : Fin 1) = t.val
    ∧ win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0 :=
  (by decide +kernel : ∀ t : Fin grid0.N, _)

/-- Row `p` of the block of `x` at point `t` is row `1024·t + p` of the array the kernel is handed. -/
theorem xblk_apply (c : Dev nD) (t : Fin cfg0.N) (p : Fin 1024) (d : Fin 512) (r : Fin 16384) (hr : r.val = 1024 * t.val + p.val) :
    xblk m c t (ix2 p d) = V m c main_v0 (ix2 r d) := by
  obtain ⟨h0, h1, -⟩ := idx_facts t
  unfold xblk iblk
  rw [View.read_apply]
  show V m c main_v0 _ = V m c main_v0 _
  congr 1
  funext a
  apply Fin.ext
  match a with
  | ⟨0, _⟩ => show win0_0.index t 0 * 1024 + 1 * p.val = r.val; rw [h0, hr]; omega
  | ⟨1, _⟩ => show win0_0.index t 1 * 512 + 1 * d.val = d.val; rw [h1]; omega

/-- Entry `p` of the block of the ids at point `t` is entry `1024·t + p` of the ids. -/
theorem idblk_apply (c : Dev nD) (t : Fin cfg0.N) (p : Fin 1024) (r : Fin 16384) (hr : r.val = 1024 * t.val + p.val) :
    idblk m c t (ix1 p) = V m c main_arg1 (ix1 r) := by
  obtain ⟨-, -, h0, -⟩ := idx_facts t
  unfold idblk iblk
  rw [View.read_apply]
  show V m c main_arg1 _ = V m c main_arg1 _
  congr 1
  funext a
  apply Fin.ext
  match a with
  | ⟨0, _⟩ => show win0_1.index t 0 * 1024 + 1 * p.val = r.val; rw [h0, hr]; omega

/-- A resident window's block is the whole array it is cut from. -/
theorem w1blk_eq (c : Dev nD) (t : Fin cfg0.N) : w1blk m c t = V m c main_v1 := by
  obtain ⟨-, -, -, h0, h1, -⟩ := idx_facts t
  funext y
  unfold w1blk iblk
  rw [View.read_apply]
  show V m c main_v1 _ = V m c main_v1 _
  congr 1
  funext a
  apply Fin.ext
  match a with
  | ⟨0, _⟩ => show win0_2.index t 0 * 512 + 1 * (y 0).val = (y 0).val; rw [h0]; omega
  | ⟨1, _⟩ => show win0_2.index t 1 * 2048 + 1 * (y 1).val = (y 1).val; rw [h1]; omega

theorem b1blk_eq (c : Dev nD) (t : Fin cfg0.N) : b1blk m c t = V m c main_arg3 := by
  obtain ⟨-, -, -, -, -, h0, -⟩ := idx_facts t
  funext y
  unfold b1blk iblk
  rw [View.read_apply]
  show V m c main_arg3 _ = V m c main_arg3 _
  congr 1
  funext a
  apply Fin.ext
  match a with
  | ⟨0, _⟩ => show win0_3.index t 0 * 2048 + 1 * (y 0).val = (y 0).val; rw [h0]; omega

theorem w2blk_eq (c : Dev nD) (t : Fin cfg0.N) : w2blk m c t = V m c main_v2 := by
  obtain ⟨-, -, -, -, -, -, h0, h1, -⟩ := idx_facts t
  funext y
  unfold w2blk iblk
  rw [View.read_apply]
  show V m c main_v2 _ = V m c main_v2 _
  congr 1
  funext a
  apply Fin.ext
  match a with
  | ⟨0, _⟩ => show win0_4.index t 0 * 2048 + 1 * (y 0).val = (y 0).val; rw [h0]; omega
  | ⟨1, _⟩ => show win0_4.index t 1 * 512 + 1 * (y 1).val = (y 1).val; rw [h1]; omega

theorem b2blk_eq (c : Dev nD) (t : Fin cfg0.N) : b2blk m c t = V m c main_arg5 := by
  obtain ⟨-, -, -, -, -, -, -, -, h0⟩ := idx_facts t
  funext y
  unfold b2blk iblk
  rw [View.read_apply]
  show V m c main_arg5 _ = V m c main_arg5 _
  congr 1
  funext a
  apply Fin.ext
  match a with
  | ⟨0, _⟩ => show win0_5.index t 0 * 512 + 1 * (y 0).val = (y 0).val; rw [h0]; omega

/-- The three arrays the host prepares before the region: the arguments changed to bf16. -/
theorem V_main_v0 (c : Dev nD) :
    (V m c main_v0 : S16384x512.Idx → F .bf16) = truncf .bf16 (m ((c : Thread nD τ).loc main_arg0)) bitsLt_bf16_f32 := by
  show StableHlo.after hostOps0 (fun b => m (c, b)) (Proc.devRef .tc main_v0) = _
  after_results
theorem V_main_v1 (c : Dev nD) :
    (V m c main_v1 : S512x2048.Idx → F .bf16) = truncf .bf16 (m ((c : Thread nD τ).loc main_arg2)) bitsLt_bf16_f32 := by
  show StableHlo.after hostOps0 (fun b => m (c, b)) (Proc.devRef .tc main_v1) = _
  after_results
theorem V_main_v2 (c : Dev nD) :
    (V m c main_v2 : S2048x512.Idx → F .bf16) = truncf .bf16 (m ((c : Thread nD τ).loc main_arg4)) bitsLt_bf16_f32 := by
  show StableHlo.after hostOps0 (fun b => m (c, b)) (Proc.devRef .tc main_v2) = _
  after_results

end Generic

/-! ## Over the extended reals -/

variable (m : (ℓ : Loc nD τ sig) → Buf (Elt Ideal) ℓ)

/-- The argument arrays on core `c`. -/
abbrev argX (c : Dev nD) : XArr := m ((c : Thread nD τ).loc main_arg0)
abbrev argIds (c : Dev nD) : IdArr := m ((c : Thread nD τ).loc main_arg1)
abbrev argW1 (c : Dev nD) : W1Arr := m ((c : Thread nD τ).loc main_arg2)
abbrev argB1 (c : Dev nD) : B1Arr := m ((c : Thread nD τ).loc main_arg3)
abbrev argW2 (c : Dev nD) : W2Arr := m ((c : Thread nD τ).loc main_arg4)
abbrev argB2 (c : Dev nD) : B2Arr := m ((c : Thread nD τ).loc main_arg5)

/-- The block of `x` at point `t` is tile `t` of the argument: the change to bf16 is the identity here. -/
theorem xblk_rows (c : Dev nD) (t : Fin cfg0.N) (p : Fin 1024) (d : Fin 512) :
    xblk m c t (ix2 p d) = argX m c (ix2 (rowN t.val p) d) := by
  have ht : t.val < 16 := lt_of_lt_of_eq t.isLt (show cfg0.N = 16 from N_0)
  rw [xblk_apply m c t p d (rowN t.val p) (rowN_val _ ht p), V_main_v0]
  rfl

/-- The block of the ids at point `t` is tile `t` of the argument. -/
theorem idblk_rows (c : Dev nD) (t : Fin cfg0.N) (p : Fin 1024) :
    idblk m c t (ix1 p) = argIds m c (ix1 (rowN t.val p)) := by
  have ht : t.val < 16 := lt_of_lt_of_eq t.isLt (show cfg0.N = 16 from N_0)
  rw [idblk_apply m c t p (rowN t.val p) (rowN_val _ ht p), V_main_arg1]

theorem w1blk_arg (c : Dev nD) (t : Fin cfg0.N) : w1blk m c t = argW1 m c := by
  rw [w1blk_eq, V_main_v1]; rfl
theorem b1blk_arg (c : Dev nD) (t : Fin cfg0.N) : b1blk m c t = argB1 m c := by
  rw [b1blk_eq, V_main_arg3]
theorem w2blk_arg (c : Dev nD) (t : Fin cfg0.N) : w2blk m c t = argW2 m c := by
  rw [w2blk_eq, V_main_v2]; rfl
theorem b2blk_arg (c : Dev nD) (t : Fin cfg0.N) : b2blk m c t = argB2 m c := by
  rw [b2blk_eq, V_main_arg5]

/-! ### One grid point -/

/-- At a restart the segment-sum block ends at the tile's contribution. -/
theorem sumA (c : Dev nD) (t : Fin cfg0.N) (h0 : t.val % 8 = 0) (s : Fin 16) (j : Fin 512) :
    (outsAt0 m c t.val t.isLt).1 (ix3 (0 : Fin 1) s j) = tileSum (argX m c) (argIds m c) (argW1 m c) (argB1 m c) (argW2 m c) (argB2 m c) t.val s j := by
  rw [outsAt0_A m c t h0]
  dsimp only
  refine (congrFun (out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) (iblk m c 5 t)) (ix3 (0 : Fin 1) s j)).trans ?_
  show k0_pay5 (F := Ideal) (xblk m c t) (w1blk m c t) (b1blk m c t) (w2blk m c t) (b2blk m c t) (idblk m c t) (k0_pay2 (F := Ideal)) (ix3 (0 : Fin 1) s j) = _
  rw [w1blk_arg, b1blk_arg, w2blk_arg, b2blk_arg,
    pay5_apply (argX m c) (argIds m c) (argW1 m c) (argB1 m c) (argW2 m c) (argB2 m c) t.val (xblk m c t) (idblk m c t) (k0_pay2 (F := Ideal)) (xblk_rows m c t) (idblk_rows m c t) s j, pay2_apply, zero_add]

/-- At a restart the count block ends at the tile's count. -/
theorem cntA (c : Dev nD) (t : Fin cfg0.N) (h0 : t.val % 8 = 0) (s : Fin 16) (l : Fin 128) :
    (outsAt0 m c t.val t.isLt).2 (ix3 (0 : Fin 1) s l) = tileCnt (argIds m c) t.val s := by
  rw [outsAt0_A m c t h0]
  dsimp only
  refine (congrFun (out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) (iblk m c 5 t)) (ix3 (0 : Fin 1) s l)).trans ?_
  show k0_pay1 (F := Ideal) (k0_pay4 (idblk m c t)) (k0_pay3 (F := Ideal)) (ix3 (0 : Fin 1) s l) = _
  rw [pay1_apply (argIds m c) t.val (idblk m c t) (k0_pay3 (F := Ideal)) (idblk_rows m c t) s l, pay3_apply, zero_add]

/-- Elsewhere the segment-sum block ends at what the point before left plus the tile's contribution. -/
theorem sumB (c : Dev nD) (t : Fin cfg0.N) (h0 : ¬t.val % 8 = 0) (s : Fin 16) (j : Fin 512) :
    (outsAt0 m c t.val t.isLt).1 (ix3 (0 : Fin 1) s j)
      = (outsAt0 m c (t.val - 1) (Nat.lt_of_le_of_lt (Nat.sub_le _ _) t.isLt)).1 (ix3 (0 : Fin 1) s j) + tileSum (argX m c) (argIds m c) (argW1 m c) (argB1 m c) (argW2 m c) (argB2 m c) t.val s j := by
  rw [outsAt0_B m c t h0]
  dsimp only
  refine (congrFun (out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (iblk m c 5 t)
    (outsAt0 m c (t.val - 1) (Nat.lt_of_le_of_lt (Nat.sub_le _ _) t.isLt)).1 (outsAt0 m c (t.val - 1) (Nat.lt_of_le_of_lt (Nat.sub_le _ _) t.isLt)).2) (ix3 (0 : Fin 1) s j)).trans ?_
  show k0_pay5 (F := Ideal) (xblk m c t) (w1blk m c t) (b1blk m c t) (w2blk m c t) (b2blk m c t) (idblk m c t) _ (ix3 (0 : Fin 1) s j) = _
  rw [w1blk_arg, b1blk_arg, w2blk_arg, b2blk_arg,
    pay5_apply (argX m c) (argIds m c) (argW1 m c) (argB1 m c) (argW2 m c) (argB2 m c) t.val (xblk m c t) (idblk m c t) _ (xblk_rows m c t) (idblk_rows m c t) s j]

/-- Elsewhere the count block ends at what the point before left plus the tile's count. -/
theorem cntB (c : Dev nD) (t : Fin cfg0.N) (h0 : ¬t.val % 8 = 0) (s : Fin 16) (l : Fin 128) :
    (outsAt0 m c t.val t.isLt).2 (ix3 (0 : Fin 1) s l)
      = (outsAt0 m c (t.val - 1) (Nat.lt_of_le_of_lt (Nat.sub_le _ _) t.isLt)).2 (ix3 (0 : Fin 1) s l) + tileCnt (argIds m c) t.val s := by
  rw [outsAt0_B m c t h0]
  dsimp only
  refine (congrFun (out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (iblk m c 5 t)
    (outsAt0 m c (t.val - 1) (Nat.lt_of_le_of_lt (Nat.sub_le _ _) t.isLt)).1 (outsAt0 m c (t.val - 1) (Nat.lt_of_le_of_lt (Nat.sub_le _ _) t.isLt)).2) (ix3 (0 : Fin 1) s l)).trans ?_
  show k0_pay1 (F := Ideal) (k0_pay4 (idblk m c t)) _ (ix3 (0 : Fin 1) s l) = _
  rw [pay1_apply (argIds m c) t.val (idblk m c t) _ (idblk_rows m c t) s l]

/-! ### All grid points -/

/-- After point `n` the two blocks hold the running accumulations of the tiles' contributions and counts. -/
theorem outsAt_eq (c : Dev nD) : ∀ (n : ℕ) (h : n < cfg0.N),
    (∀ (s : Fin 16) (j : Fin 512), (outsAt0 m c n h).1 (ix3 (0 : Fin 1) s j)
        = runAcc (fun t => tileSum (argX m c) (argIds m c) (argW1 m c) (argB1 m c) (argW2 m c) (argB2 m c) t s j) n)
    ∧ (∀ (s : Fin 16) (l : Fin 128), (outsAt0 m c n h).2 (ix3 (0 : Fin 1) s l)
        = runAcc (fun t => tileCnt (argIds m c) t s) n)
  | 0, h => ⟨fun s j => sumA m c ⟨0, h⟩ rfl s j, fun s l => cntA m c ⟨0, h⟩ rfl s l⟩
  | n + 1, h => by
    obtain ⟨ih6, ih7⟩ := outsAt_eq c n (Nat.lt_of_succ_lt h)
    by_cases h0 : (n + 1) % 8 = 0
    · refine ⟨fun s j => ?_, fun s l => ?_⟩
      · rw [runAcc, if_pos h0]; exact sumA m c ⟨n + 1, h⟩ h0 s j
      · rw [runAcc, if_pos h0]; exact cntA m c ⟨n + 1, h⟩ h0 s l
    · refine ⟨fun s j => ?_, fun s l => ?_⟩
      · rw [runAcc, if_neg h0, ← ih6 s j]; exact sumB m c ⟨n + 1, h⟩ h0 s j
      · rw [runAcc, if_neg h0, ← ih7 s l]; exact cntB m c ⟨n + 1, h⟩ h0 s l

end Cert.KernelIdeal.KValue

end
-- ==== Proof.KFinal.lean ====
/-
  The two arrays the region writes, after the run.

  Core c's block of each output array is written back once, after its eighth tile (grid points 7 and 15), and the two
  blocks tile the array. So the segment-sum array ends holding, at (c, s, j), the accumulation of tiles 8c … 8c + 7 of
  the tiles' contributions, and the count array the same accumulation of the tiles' counts, in every lane.
-/
import proofs.«424289_j32753420599620_3_alg».proof.Proof.KAccum

set_option maxRecDepth 16384

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen
open Idealize.ShloMosaic.ValueIdx SegPool

variable (m : (ℓ : Loc nD τ sig) → Buf (Elt Ideal) ℓ)

/-- The segment-sum array after the run: core `i 0`'s accumulation through its last tile. -/
def sumArr (c : Dev nD) : S2x16x512.Idx → EReal := fun i =>
  runAcc (fun t => tileSum (argX m c) (argIds m c) (argW1 m c) (argB1 m c) (argW2 m c) (argB2 m c) t (i 1) (i 2)) (8 * (i 0).val + 7)

/-- The count array after the run, the same in every lane. -/
def cntArr (c : Dev nD) : S2x16x128.Idx → EReal := fun i =>
  runAcc (fun t => tileCnt (argIds m c) t (i 1)) (8 * (i 0).val + 7)

/-- The output windows' block indices over the grid: core `t / 8`'s block, at the origin of the other two axes. -/
theorem out_idx : ∀ t : Fin cfg0.N,
    win0_6.index t (0 : Fin 3) = t.val / 8 ∧ win0_6.index t (1 : Fin 3) = 0 ∧ win0_6.index t (2 : Fin 3) = 0
    ∧ win0_7.index t (0 : Fin 3) = t.val / 8 ∧ win0_7.index t (1 : Fin 3) = 0 ∧ win0_7.index t (2 : Fin 3) = 0 :=
  (by decide +kernel : ∀ t : Fin grid0.N, _)

/-- What a write-back of the segment-sum window writes is its block of `sumArr`. -/
theorem flushed6_eq (c : Dev nD) (t : Fin cfg0.N) (hf : (cfg0.win 6).flush t = true) :
    (dats m 0 c).flushed 6 t = ((cfg0.win 6).blk t).view.read (Elt Ideal) (sumArr m c) := by
  have h7 : t.val % 8 = 7 := (flush0_6 t).mp hf
  obtain ⟨e0, e1, e2, -⟩ := out_idx t
  show (cfg0.win 6).cut (grid0.coords t) ((dats m 0 c).after 6 t) = _
  rw [after0_6]
  funext y
  obtain ⟨u, s, j, rfl⟩ : ∃ (u : Fin 1) (s : Fin 16) (j : Fin 512), y = ix3 u s j := ⟨y 0, y 1, y 2, eq_ix3 y⟩
  obtain rfl : u = 0 := Subsingleton.elim _ _
  show (outsAt0 m c t.val t.isLt).1 (ix3 (0 : Fin 1) s j) = sumArr m c (((cfg0.win 6).blk t).view.emb (ix3 (0 : Fin 1) s j))
  rw [(outsAt_eq m c t.val t.isLt).1 s j]
  unfold sumArr
  have a0 : ((((cfg0.win 6).blk t).view.emb (ix3 (0 : Fin 1) s j)) 0).val = t.val / 8 := by
    show win0_6.index t 0 * 1 + 1 * 0 = t.val / 8
    rw [e0]; omega
  have a1 : (((cfg0.win 6).blk t).view.emb (ix3 (0 : Fin 1) s j)) 1 = s := Fin.ext (by
    show win0_6.index t 1 * 16 + 1 * s.val = s.val
    rw [e1]; omega)
  have a2 : (((cfg0.win 6).blk t).view.emb (ix3 (0 : Fin 1) s j)) 2 = j := Fin.ext (by
    show win0_6.index t 2 * 512 + 1 * j.val = j.val
    rw [e2]; omega)
  dsimp only
  rw [a0, a1, a2, show 8 * (t.val / 8) + 7 = t.val from by omega]

/-- What a write-back of the count window writes is its block of `cntArr`. -/
theorem flushed7_eq (c : Dev nD) (t : Fin cfg0.N) (hf : (cfg0.win 7).flush t = true) :
    (dats m 0 c).flushed 7 t = ((cfg0.win 7).blk t).view.read (Elt Ideal) (cntArr m c) := by
  have h7 : t.val % 8 = 7 := (flush0_7 t).mp hf
  obtain ⟨-, -, -, e0, e1, e2⟩ := out_idx t
  show (cfg0.win 7).cut (grid0.coords t) ((dats m 0 c).after 7 t) = _
  rw [after0_7]
  funext y
  obtain ⟨u, s, l, rfl⟩ : ∃ (u : Fin 1) (s : Fin 16) (l : Fin 128), y = ix3 u s l := ⟨y 0, y 1, y 2, eq_ix3 y⟩
  obtain rfl : u = 0 := Subsingleton.elim _ _
  show (outsAt0 m c t.val t.isLt).2 (ix3 (0 : Fin 1) s l) = cntArr m c (((cfg0.win 7).blk t).view.emb (ix3 (0 : Fin 1) s l))
  rw [(outsAt_eq m c t.val t.isLt).2 s l]
  unfold cntArr
  have a0 : ((((cfg0.win 7).blk t).view.emb (ix3 (0 : Fin 1) s l)) 0).val = t.val / 8 := by
    show win0_7.index t 0 * 1 + 1 * 0 = t.val / 8
    rw [e0]; omega
  have a1 : (((cfg0.win 7).blk t).view.emb (ix3 (0 : Fin 1) s l)) 1 = s := Fin.ext (by
    show win0_7.index t 1 * 16 + 1 * s.val = s.val
    rw [e1]; omega)
  dsimp only
  rw [a0, a1, show 8 * (t.val / 8) + 7 = t.val from by omega]

/-- The last grid point of core `q`. -/
def lastPt (q : Fin 2) : Fin cfg0.N := ⟨8 * q.val + 7, by rw [show cfg0.N = 16 from N_0]; omega⟩

/-- An index of the segment-sum array is in a point's block iff each coordinate is in the block's range. -/
theorem mem_blk6 (t : Fin cfg0.N) (i : S2x16x512.Idx) :
    i ∈ ((cfg0.win 6).blk t).view.set ↔ ∀ a : Fin 3, win0_6.index t a * S1x16x512.size a ≤ (i a).val ∧ (i a).val < win0_6.index t a * S1x16x512.size a + S1x16x512.size a := by
  show i ∈ ((View.whole main_v3_0).slice (win0_6.rect t)).set ↔ _
  rw [View.set_slice_whole, Rect.mem_set_unit]
  exact Iff.rfl

theorem mem_blk7 (t : Fin cfg0.N) (i : S2x16x128.Idx) :
    i ∈ ((cfg0.win 7).blk t).view.set ↔ ∀ a : Fin 3, win0_7.index t a * S1x16x128.size a ≤ (i a).val ∧ (i a).val < win0_7.index t a * S1x16x128.size a + S1x16x128.size a := by
  show i ∈ ((View.whole main_v3_1).slice (win0_7.rect t)).set ↔ _
  rw [View.set_slice_whole, Rect.mem_set_unit]
  exact Iff.rfl

/-- THE SEGMENT-SUM ARRAY after the run. -/
theorem final6 (c : Dev nD) : (dats m 0 c).arrAt 6 cfg0.N = sumArr m c :=
  (dats m 0 c).arrAt_eq_of_cover 6 (sumArr m c) (flushed6_eq m c) fun i => by
    have hi0 : (i 0).val < 2 := (i 0).isLt
    have hi1 : (i 1).val < 16 := (i 1).isLt
    have hi2 : (i 2).val < 512 := (i 2).isLt
    obtain ⟨e0, e1, e2, -⟩ := out_idx (lastPt ⟨(i 0).val, hi0⟩)
    have hv : (lastPt ⟨(i 0).val, hi0⟩).val = 8 * (i 0).val + 7 := rfl
    refine ⟨lastPt ⟨(i 0).val, hi0⟩, (flush0_6 _).mpr (by rw [hv]; omega), ?_⟩
    rw [mem_blk6]
    intro a
    match a with
    | ⟨0, _⟩ => show win0_6.index _ 0 * 1 ≤ (i 0).val ∧ (i 0).val < win0_6.index _ 0 * 1 + 1; rw [e0, hv]; omega
    | ⟨1, _⟩ => show win0_6.index _ 1 * 16 ≤ (i 1).val ∧ (i 1).val < win0_6.index _ 1 * 16 + 16; rw [e1]; omega
    | ⟨2, _⟩ => show win0_6.index _ 2 * 512 ≤ (i 2).val ∧ (i 2).val < win0_6.index _ 2 * 512 + 512; rw [e2]; omega

/-- THE COUNT ARRAY after the run. -/
theorem final7 (c : Dev nD) : (dats m 0 c).arrAt 7 cfg0.N = cntArr m c :=
  (dats m 0 c).arrAt_eq_of_cover 7 (cntArr m c) (flushed7_eq m c) fun i => by
    have hi0 : (i 0).val < 2 := (i 0).isLt
    have hi1 : (i 1).val < 16 := (i 1).isLt
    have hi2 : (i 2).val < 128 := (i 2).isLt
    obtain ⟨-, -, -, e0, e1, e2⟩ := out_idx (lastPt ⟨(i 0).val, hi0⟩)
    have hv : (lastPt ⟨(i 0).val, hi0⟩).val = 8 * (i 0).val + 7 := rfl
    refine ⟨lastPt ⟨(i 0).val, hi0⟩, (flush0_7 _).mpr (by rw [hv]; omega), ?_⟩
    rw [mem_blk7]
    intro a
    match a with
    | ⟨0, _⟩ => show win0_7.index _ 0 * 1 ≤ (i 0).val ∧ (i 0).val < win0_7.index _ 0 * 1 + 1; rw [e0, hv]; omega
    | ⟨1, _⟩ => show win0_7.index _ 1 * 16 ≤ (i 1).val ∧ (i 1).val < win0_7.index _ 1 * 16 + 16; rw [e1]; omega
    | ⟨2, _⟩ => show win0_7.index _ 2 * 128 ≤ (i 2).val ∧ (i 2).val < win0_7.index _ 2 * 128 + 128; rw [e2]; omega

end Cert.KernelIdeal.KValue

end
-- ==== Proof.KTail.lean ====
/-
  The host lines after the region, and the kernel's result.

  After the region the host adds the two cores' blocks of each array, takes lane 0 of the summed counts, and divides
  the summed segment sums by the larger of the count and one. The two cores' accumulations together are all sixteen
  tiles' contributions, that is the segment's sum and count over all tokens: the result is the pooled segment mean.
-/
import proofs.«424289_j32753420599620_3_alg».proof.Proof.KFinal
import Idealize.ShloMosaic.Lib.StableHlo.Run

set_option maxRecDepth 16384

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen
open Idealize.ShloMosaic.ValueIdx SegPool

/-! ### The tail's operations read at an index -/

section Reads
variable {α : Type}

theorem red512 : Shape.Reduces S2x16x512 [0] S16x512 := by decide
theorem red128 : Shape.Reduces S2x16x128 [0] S16x128 := by decide

/-- The sum over the core axis of a [2, 16, 512] array from zero, at (s, j): the two cores' entries added. -/
theorem coreSum512 (A : S2x16x512.Idx → EReal) (s : Fin 16) (j : Fin 512) :
    Host.reduceAdd (F := Ideal) (φ := .f32) A (constant S_ .f32 0x00000000#32) reducesTo_S2x16x512_S16x512_d0 h_S_ (ix2 s j)
      = A (ix3 (0 : Fin 2) s j) + A (ix3 (1 : Fin 2) s j) := by
  have e : ∀ k : Fin 2, red512.lift (ix2 s j) k = ix3 k s j := fun k =>
    funext fun a => Fin.ext (by match a with | ⟨0, _⟩ => rfl | ⟨1, _⟩ => rfl | ⟨2, _⟩ => rfl)
  refine (Ideal.hostReduceAdd_single reducesTo_S2x16x512_S16x512_d0 red512 A _ (ix2 s j)).trans ?_
  show Ideal.ofBits .f32 0x00000000#32 + ∑ k : Fin 2, A (red512.lift (ix2 s j) k) = _
  rw [Ideal.ofBits_zero_f32, zero_add, Fin.sum_univ_two, e, e]

/-- The same for a [2, 16, 128] array. -/
theorem coreSum128 (A : S2x16x128.Idx → EReal) (s : Fin 16) (l : Fin 128) :
    Host.reduceAdd (F := Ideal) (φ := .f32) A (constant S_ .f32 0x00000000#32) reducesTo_S2x16x128_S16x128_d0 h_S_ (ix2 s l)
      = A (ix3 (0 : Fin 2) s l) + A (ix3 (1 : Fin 2) s l) := by
  have e : ∀ k : Fin 2, red128.lift (ix2 s l) k = ix3 k s l := fun k =>
    funext fun a => Fin.ext (by match a with | ⟨0, _⟩ => rfl | ⟨1, _⟩ => rfl | ⟨2, _⟩ => rfl)
  refine (Ideal.hostReduceAdd_single reducesTo_S2x16x128_S16x128_d0 red128 A _ (ix2 s l)).trans ?_
  show Ideal.ofBits .f32 0x00000000#32 + ∑ k : Fin 2, A (red128.lift (ix2 s l) k) = _
  rw [Ideal.ofBits_zero_f32, zero_add, Fin.sum_univ_two, e, e]

/-- A [16, 1] column broadcast over 512 columns reads its row. -/
theorem bcast_col (v : S16x1.Idx → α) (s : Fin 16) (j : Fin 512) :
    broadcastInDim S16x512 ![0, 1] bcast_S16x1_S16x512_0_1 v (ix2 s j) = v (ix2 s (0 : Fin 1)) :=
  broadcastInDim_apply _ bcast_S16x1_S16x512_0_1 v _ _ (fun a => match a with
    | ⟨0, _⟩ => by show s.val = if (16 : Nat) = 1 then 0 else s.val; rw [if_neg (by decide)]
    | ⟨1, _⟩ => by show 0 = if (1 : Nat) = 1 then 0 else j.val; rw [if_pos rfl])

/-- A [16] vector laid out as a [16, 1] column reads its entry. -/
theorem bcast_vec (v : S16.Idx → α) (s : Fin 16) (u : Fin 1) :
    broadcastInDim S16x1 ![0] bcast_S16_S16x1_0 v (ix2 s u) = v (ix1 s) :=
  broadcastInDim_apply _ bcast_S16_S16x1_0 v _ _ (fun a => match a with
    | ⟨0, _⟩ => by show s.val = if (16 : Nat) = 1 then 0 else s.val; rw [if_neg (by decide)])

/-- A scalar broadcast to a [16] vector reads the scalar. -/
theorem bcast_scalar (v : S_.Idx → α) (s : Fin 16) :
    broadcastInDim S16 ![] bcast_S_S16 v (ix1 s) = v ix0 :=
  broadcastInDim_apply _ bcast_S_S16 v _ _ (fun a => a.elim0)

/-- Lane 0 of a [16, 128] array, as a [16, 1] column then a [16] vector, reads the array at (s, 0). -/
theorem lane0 (Y : S16x128.Idx → α) (s : Fin 16) :
    shapeCast S16 (extractStridedSlice S16x1 ![0, 0] Y slices_S16x128_S16x1_0_0) shapeCasts_S16x1_S16 (ix1 s) = Y (ix2 s (0 : Fin 128)) := by
  rw [shapeCast_apply _ shapeCasts_S16x1_S16 (ix1 s) (ix2 s (0 : Fin 1)) (by
    rw [Shape.rowMajor_val_two, Shape.rowMajor_val_one]
    show s.val * 1 + 0 = s.val
    omega)]
  unfold extractStridedSlice
  congr 1
  funext a
  apply Fin.ext
  match a with
  | ⟨0, _⟩ => show 0 + s.val = s.val; omega
  | ⟨1, _⟩ => rfl

end Reads

variable (m : (ℓ : Loc nD τ sig) → Buf (Elt Ideal) ℓ)

/-- THE KERNEL'S RESULT: what the host lines after the region leave in the result buffer is the pooled segment mean of
    the argument arrays. -/
theorem tail_eq (c : Dev nD) :
    Pipeline.afterTail₀ cfgs (dats m) 0 (V0 m) [hostOps1] c main_v12
      = pooled (argX m c) (argIds m c) (argW1 m c) (argB1 m c) (argW2 m c) (argB2 m c) := by
  have e6 : Pipeline.withArrays (cfgs 0).spec c (V0 m c) (fun w => (dats m 0 c).arrAt w (cfgs 0).N) (Proc.devRef .tc main_v3_0) = sumArr m c :=
    (Pipeline.withArrays_arr spec0 launch0.win.arr_inj c _ _ 6).trans (final6 m c)
  have e7 : Pipeline.withArrays (cfgs 0).spec c (V0 m c) (fun w => (dats m 0 c).arrAt w (cfgs 0).N) (Proc.devRef .tc main_v3_1) = cntArr m c :=
    (Pipeline.withArrays_arr spec0 launch0.win.arr_inj c _ _ 7).trans (final7 m c)
  unfold Pipeline.afterTail₀
  show StableHlo.after hostOps1 _ (Proc.devRef .tc main_v12) = _
  after_results
  rw [e6, e7]
  funext i
  obtain ⟨s, j, rfl⟩ : ∃ (s : Fin 16) (j : Fin 512), i = ix2 s j := ⟨i 0, i 1, eq_ix2 i⟩
  show Ideal.div (Host.reduceAdd (F := Ideal) (φ := .f32) (sumArr m c) (constant S_ .f32 0x00000000#32) reducesTo_S2x16x512_S16x512_d0 h_S_ (ix2 s j))
    (broadcastInDim S16x512 _ bcast_S16x1_S16x512_0_1 _ (ix2 s j)) = _
  rw [coreSum512, bcast_col, bcast_vec]
  show Ideal.div _ (max (shapeCast S16 (extractStridedSlice S16x1 _
      (Host.reduceAdd (F := Ideal) (φ := .f32) (cntArr m c) (constant S_ .f32 0x00000000#32) reducesTo_S2x16x128_S16x128_d0 h_S_)
      slices_S16x128_S16x1_0_0) shapeCasts_S16x1_S16 (ix1 s))
    (broadcastInDim S16 _ bcast_S_S16 (constant (F := Ideal) S_ .f32 0x3F800000#32) (ix1 s))) = _
  rw [lane0, coreSum128, bcast_scalar]
  unfold pooled sumArr cntArr
  show Ideal.div (runAcc _ 7 + runAcc _ 15) (max (runAcc _ 7 + runAcc _ 15) (Ideal.ofBits .f32 0x3F800000#32)) = _
  rw [runAcc_total, runAcc_total, sum_tileSum, sum_tileCnt]

/-- The kernel's run, read: the result at the pooled segment mean of the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v12) = pooled (argX m c) (argIds m c) (argW1 m c) (argB1 m c) (argW2 m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  exact (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩) (run_main m ρ)

end Cert.KernelIdeal.KValue

end
-- ==== Proof.lean ====
/-
  A fused encoder + segment-mean-pooling kernel against its jnp reference, over the extended reals.

  Both programs compute, for each of 16 segments s and 512 columns j, the mean over the tokens of segment s of a
  two-layer encoder's output  enc r j = (Σₖ relu(Σ_d x[r,d]·W1[d,k] + b1[k]) · W2[k,j]) + b2[j],  as the segment's
  sum divided by the larger of the segment's token count and one.

  The reference scatters the encoder's rows, and ones, into 16 rows by the segment ids (an id that names no segment
  lands nowhere). The kernel walks 16 tiles of 1024 tokens, 8 per TensorCore-grid row: per tile it forms the one-hot
  matrix of the ids against 0..15 (an id that names no segment gives a zero row), adds onehotᵀ·enc and the column sums
  of the one-hot matrix into two blocks that restart at tiles 0 and 8, and the host adds the two partial results and
  divides. Over the extended reals a one-hot weight times a value is the value or zero and sums may be regrouped
  freely, so the two are one function of the arguments (`SegPool.pooled`): the reference by reading its operations at
  an index (Proof/RefValue.lean), the kernel by induction over the grid points on what its two output blocks hold
  (Proof/KAccum.lean), then the write-backs (Proof/KFinal.lean) and the host lines after the region
  (Proof/KTail.lean). No law used needs finiteness, so the precondition is never opened. The ideal pass rewrote
  nothing, so `preserves` is trivial.
-/
import proofs.«424289_j32753420599620_3_alg».proof.Defs
import proofs.«424289_j32753420599620_3_alg».proof.Proof.Gen.Kernel
import proofs.«424289_j32753420599620_3_alg».proof.Proof.Gen.Kernel.Frame
import proofs.«424289_j32753420599620_3_alg».proof.Proof.Gen.KernelIdeal
import proofs.«424289_j32753420599620_3_alg».proof.Proof.Gen.KernelIdeal.Frame
import proofs.«424289_j32753420599620_3_alg».proof.Proof.Gen.ReferenceIdeal
import proofs.«424289_j32753420599620_3_alg».proof.Proof.Gen.ReferenceIdeal.Run
import proofs.«424289_j32753420599620_3_alg».proof.Proof.Gen.Pre_finite_inputs
import proofs.«424289_j32753420599620_3_alg».proof.Proof.RefValue
import proofs.«424289_j32753420599620_3_alg».proof.Proof.KTail
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is straight-line host code: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the pooled segment mean of the (agreeing) arguments in their result buffers. -/
theorem algebraic : Cert.algebraic_KernelIdeal_ReferenceIdeal := by
  intro m ρ m' ρ' _ hagree
  refine ⟨fun c => SegPool.pooled (Cert.KernelIdeal.KValue.argX m c) (Cert.KernelIdeal.KValue.argIds m c)
      (Cert.KernelIdeal.KValue.argW1 m c) (Cert.KernelIdeal.KValue.argB1 m c) (Cert.KernelIdeal.KValue.argW2 m c)
      (Cert.KernelIdeal.KValue.argB2 m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v20_eq, Cert.ReferenceIdeal.RefValue.ref_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
